-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x36x4096 : Shape := ⟨3, ![64, 36, 4096]⟩
abbrev S_ : Shape := ⟨0, ![]⟩

class Facts : Prop where
  bcast_S_S64x36x4096 : S_.BroadcastsInDim S64x36x4096 (![] : Fin 0 → Fin S64x36x4096.rank)
  reducesTo_S64x36x4096_S_d0_1_2 : S64x36x4096.ReducesTo [0, 1, 2] S_
  h_S_ : 0 < S_.numel

variable [Facts]

def fn {F : FTy → Type} [FloatOps F] (main_arg0 : FVec F S64x36x4096 .f32) (main_arg1 : FVec F S64x36x4096 .f32) : IVec S_ 1 :=
  let main_v0 : FVec F S64x36x4096 .f32 := Host.absf main_arg0
  let main_cst : FVec F S_ .f32 := constant S_ .f32 0x7F800000#32
  let main_v1 : FVec F S64x36x4096 .f32 := broadcastInDim S64x36x4096 ![] bcast_S_S64x36x4096 main_cst
  let main_v2 : IVec S64x36x4096 1 := cmpf .olt main_v0 main_v1
  let main_c : IVec S_ 1 := constantI S_ 1 1#1
  let main_v3 : IVec S_ 1 := (fun x v => Host.reduce IntOp.andi x v reducesTo_S64x36x4096_S_d0_1_2 h_S_) main_v2 main_c
  let main_v4 : FVec F S64x36x4096 .f32 := Host.absf main_arg1
  let main_cst_0 : FVec F S_ .f32 := constant S_ .f32 0x7F800000#32
  let main_v5 : FVec F S64x36x4096 .f32 := broadcastInDim S64x36x4096 ![] bcast_S_S64x36x4096 main_cst_0
  let main_v6 : IVec S64x36x4096 1 := cmpf .olt main_v4 main_v5
  let main_c_1 : IVec S_ 1 := constantI S_ 1 1#1
  let main_v7 : IVec S_ 1 := (fun x v => Host.reduce IntOp.andi x v reducesTo_S64x36x4096_S_d0_1_2 h_S_) main_v6 main_c_1
  let main_v8 : IVec S_ 1 := andi main_v3 main_v7
  main_v8
-- ==== Kernel.lean ====
abbrev S64x36x4096 : Shape := ⟨3, ![64, 36, 4096]⟩
abbrev S2304x4096 : Shape := ⟨2, ![2304, 4096]⟩
abbrev S256x4096 : Shape := ⟨2, ![256, 4096]⟩
abbrev S256 : Shape := ⟨1, ![256]⟩
abbrev S256x1 : Shape := ⟨2, ![256, 1]⟩

abbrev nBuf : Space → Nat
  | .hbm => 6
  | .vmem => 6
  | .smem => 0
  | _ => 0

abbrev bufTy : (tb : Table) → Fin (tcTables nBuf tb) → BufTy
  | .hbm, ⟨0, _⟩ => ⟨S64x36x4096, .f32⟩
  | .hbm, ⟨1, _⟩ => ⟨S64x36x4096, .f32⟩
  | .hbm, ⟨2, _⟩ => ⟨S2304x4096, .f32⟩
  | .hbm, ⟨3, _⟩ => ⟨S2304x4096, .f32⟩
  | .hbm, ⟨4, _⟩ => ⟨S2304x4096, .f32⟩
  | .hbm, ⟨5, _⟩ => ⟨S64x36x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | _, _ => ⟨S64x36x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S64x36x4096_S2304x4096 : S64x36x4096.ShapeCasts S2304x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  reduces_S256x4096_S256 : S256x4096.Reduces [1] S256
  shapeCasts_S256_S256x1 : S256.ShapeCasts S256x1
  broadcasts_S256x1_S256x4096 : S256x1.Broadcasts S256x4096
  shapeCasts_S2304x4096_S64x36x4096 : S2304x4096.ShapeCasts S64x36x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S2304x4096.size a
  hwx0_0 : ∀ i : grid0.Coords, EltTy.bits .f32 = 32 ∨ (Rect.block (s := S2304x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S2304x4096.size a
  hwx0_1 : ∀ i : grid0.Coords, EltTy.bits .f32 = 32 ∨ (Rect.block (s := S2304x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S2304x4096.size a
  hwx0_2 : ∀ i : grid0.Coords, EltTy.bits .f32 = 32 ∨ (Rect.block (s := S2304x4096) S256x4096.size (cc0_transform_2 i) (hinb0_2 i)).WholeWords (EltTy.packing .f32)

variable [Facts₀]

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x36x4096 : Shape := ⟨3, ![64, 36, 4096]⟩
abbrev S_ : Shape := ⟨0, ![]⟩
abbrev S64x36 : Shape := ⟨2, ![64, 36]⟩
abbrev S64x36x1 : Shape := ⟨3, ![64, 36, 1]⟩

abbrev nBuf : Space → Nat
  | .hbm => 17
  | .vmem => 0
  | .smem => 0
  | _ => 0

abbrev bufTy : (tb : Table) → Fin (tcTables nBuf tb) → BufTy
  | .hbm, ⟨0, _⟩ => ⟨S64x36x4096, .f32⟩
  | .hbm, ⟨1, _⟩ => ⟨S64x36x4096, .f32⟩
  | .hbm, ⟨2, _⟩ => ⟨S_, .f32⟩
  | .hbm, ⟨3, _⟩ => ⟨S64x36, .f32⟩
  | .hbm, ⟨4, _⟩ => ⟨S64x36x1, .f32⟩
  | .hbm, ⟨5, _⟩ => ⟨S_, .f32⟩
  | .hbm, ⟨6, _⟩ => ⟨S64x36x1, .f32⟩
  | .hbm, ⟨7, _⟩ => ⟨S64x36x1, .f32⟩
  | .hbm, ⟨8, _⟩ => ⟨S_, .f32⟩
  | .hbm, ⟨9, _⟩ => ⟨S64x36, .f32⟩
  | .hbm, ⟨10, _⟩ => ⟨S64x36x1, .f32⟩
  | .hbm, ⟨11, _⟩ => ⟨S_, .f32⟩
  | .hbm, ⟨12, _⟩ => ⟨S64x36x1, .f32⟩
  | .hbm, ⟨13, _⟩ => ⟨S64x36x1, .f32⟩
  | .hbm, ⟨14, _⟩ => ⟨S64x36x1, .f32⟩
  | .hbm, ⟨15, _⟩ => ⟨S64x36x4096, .f32⟩
  | .hbm, ⟨16, _⟩ => ⟨S64x36x4096, .f32⟩
  | _, _ => ⟨S64x36x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  reducesTo_S64x36x4096_S64x36_d2 : S64x36x4096.ReducesTo [2] S64x36
  h_S_ : 0 < S_.numel
  bcast_S64x36_S64x36x1_0_1 : S64x36.BroadcastsInDim S64x36x1 (![0, 1] : Fin 2 → Fin S64x36x1.rank)
  bcast_S_S64x36x1 : S_.BroadcastsInDim S64x36x1 (![] : Fin 0 → Fin S64x36x1.rank)
  bcast_S64x36x1_S64x36x4096_0_1_2 : S64x36x1.BroadcastsInDim S64x36x4096 (![0, 1, 2] : Fin 3 → Fin S64x36x4096.rank)

variable [Facts₀]

class Facts : Prop extends Facts₀ where

variable [Facts]
-- ==== Proof.LibLayoutCols.lean ====
/-
  General facts about layout operations read at an index, independent of any program, in the style of the library's
  own small-shape lemmas: the "keepdims" forms a row-wise reduction meets (a vector of row results made a column, the
  column copied across the row), a middle or leading unit axis added and then copied, a vector copied over two leading
  axes, and the cast that merges the two leading axes of a rank-3 array into one row axis. Each says which single entry
  of the operand an entry of the result is.
-/
import Idealize.ShloMosaic.Lib.Pipeline.Value
import Idealize.ShloMosaic.Lib.ValueIdx

noncomputable section

namespace Idealize.ShloMosaic.LibLayoutCols

open Idealize.ShloMosaic Idealize.ShloMosaic.ValueIdx

variable {α : Type}

/-! ## A vector as a column, and a column across its rows -/

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- So a vector of per-row values made a column and copied across the row reads, at `(p, c)`, the value of row `p`. -/
theorem broadcastTo_shapeCast_col_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

/-! ## A unit axis added in the middle or in front of a matrix, then copied -/

/-- An `[a, c]` array cast to `[a, 1, c]` reads, at `(r, u, j)`, the operand at `(r, j)`. -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (j : Fin c) :
    shapeCast ⟨3, ![a, 1, c]⟩ x h (ix3 r u j) = x (ix2 r j) :=
  shapeCast_apply x h _ _ (by
    have hu : u.val = 0 := by omega
    rw [Shape.rowMajor_val_three, Shape.rowMajor_val_two]
    show r.val * c + j.val = (r.val * 1 + u.val) * c + j.val
    rw [hu, Nat.mul_one, Nat.add_zero])

/-- An `[a, 1, c]` array broadcast to `[a, b, c]` reads, at `(r, u, j)`, the operand at `(r, 0, j)`. -/
theorem broadcastTo_a1c_abc_apply {a b c : ℕ} (v : (⟨3, ![a, 1, c]⟩ : Shape).Idx → α)
    (h : (⟨3, ![a, 1, c]⟩ : Shape).Broadcasts ⟨3, ![a, b, c]⟩) (r : Fin a) (u : Fin b) (j : Fin c) :
    broadcastTo ⟨3, ![a, b, c]⟩ v h (ix3 r u j) = v (ix3 r (0 : Fin 1) j) := by
  refine broadcastTo_apply v h (ix3 r u j) (ix3 r (0 : Fin 1) j) fun ax => ?_
  match ax with
  | ⟨0, _⟩ =>
    show r.val = if a = 1 then 0 else r.val
    split
    · have := r.isLt; omega
    · rfl
  | ⟨1, _⟩ => rfl
  | ⟨2, _⟩ =>
    show j.val = if c = 1 then 0 else j.val
    split
    · have := j.isLt; omega
    · rfl

/-- A `[1, b, c]` array broadcast to `[a, b, c]` reads, at `(r, u, j)`, the operand at `(0, u, j)`. -/
theorem broadcastTo_1bc_abc_apply {a b c : ℕ} (v : (⟨3, ![1, b, c]⟩ : Shape).Idx → α)
    (h : (⟨3, ![1, b, c]⟩ : Shape).Broadcasts ⟨3, ![a, b, c]⟩) (r : Fin a) (u : Fin b) (j : Fin c) :
    broadcastTo ⟨3, ![a, b, c]⟩ v h (ix3 r u j) = v (ix3 (0 : Fin 1) u j) := by
  refine broadcastTo_apply v h (ix3 r u j) (ix3 (0 : Fin 1) u j) fun ax => ?_
  match ax with
  | ⟨0, _⟩ => rfl
  | ⟨1, _⟩ =>
    show u.val = if b = 1 then 0 else u.val
    split
    · have := u.isLt; omega
    · rfl
  | ⟨2, _⟩ =>
    show j.val = if c = 1 then 0 else j.val
    split
    · have := j.isLt; omega
    · rfl

/-! ## A vector copied over two leading axes -/

/-- A `[c]` array cast to `[1, 1, c]` reads, at `(u, w, j)`, the operand at `j`. -/
theorem shapeCast_c_11c_apply {c : ℕ} (x : (⟨1, ![c]⟩ : Shape).Idx → α)
    (h : (⟨1, ![c]⟩ : Shape).ShapeCasts ⟨3, ![1, 1, c]⟩) (u w : Fin 1) (j : Fin c) :
    shapeCast ⟨3, ![1, 1, c]⟩ x h (ix3 u w j) = x (ix1 j) :=
  shapeCast_apply x h _ _ (by
    have hu : u.val = 0 := by omega
    have hw : w.val = 0 := by omega
    rw [Shape.rowMajor_val_three, Shape.rowMajor_val_one]
    show j.val = (u.val * 1 + w.val) * c + j.val
    simp only [hu, hw, Nat.zero_mul, Nat.add_zero, Nat.zero_add])

/-- A `[1, 1, c]` array broadcast to `[a, b, c]` reads, at `(r, u, j)`, the operand at `(0, 0, j)`. -/
theorem broadcastTo_11c_abc_apply {a b c : ℕ} (v : (⟨3, ![1, 1, c]⟩ : Shape).Idx → α)
    (h : (⟨3, ![1, 1, c]⟩ : Shape).Broadcasts ⟨3, ![a, b, c]⟩) (r : Fin a) (u : Fin b) (j : Fin c) :
    broadcastTo ⟨3, ![a, b, c]⟩ v h (ix3 r u j) = v (ix3 (0 : Fin 1) (0 : Fin 1) j) := by
  refine broadcastTo_apply v h (ix3 r u j) (ix3 (0 : Fin 1) (0 : Fin 1) j) fun ax => ?_
  match ax with
  | ⟨0, _⟩ => rfl
  | ⟨1, _⟩ => rfl
  | ⟨2, _⟩ =>
    show j.val = if c = 1 then 0 else j.val
    split
    · have := j.isLt; omega
    · rfl

/-! ## The two leading axes of a rank-3 array merged into one row axis -/

/-- An `[a, b, c]` array cast to `[n, c]` (so `n = a·b`) reads, at row `p = r·b + u` and column `j`, the operand at
    `(r, u, j)`: the row-major position is the same. -/
theorem shapeCast_abc_nc_apply {a b c n : ℕ} (x : (⟨3, ![a, b, c]⟩ : Shape).Idx → α)
    (h : (⟨3, ![a, b, c]⟩ : Shape).ShapeCasts ⟨2, ![n, c]⟩) (r : Fin a) (u : Fin b) (p : Fin n)
    (hp : p.val = r.val * b + u.val) (j : Fin c) :
    shapeCast ⟨2, ![n, c]⟩ x h (ix2 p j) = x (ix3 r u j) :=
  shapeCast_apply x h _ _ (by
    rw [Shape.rowMajor_val_three, Shape.rowMajor_val_two]
    show (r.val * b + u.val) * c + j.val = p.val * c + j.val
    rw [hp])

end Idealize.ShloMosaic.LibLayoutCols

end
-- ==== Proof.RowMean.lean ====
/-
  The mathematics both programs compute. For two arrays x and y of rows of 4096 entries, every entry of the result is
  the entry of y times the sum of the two row means of its row,

      out[r, l] = y[r, l] · ( (Σ_k x[r, k]) / 4096 + (Σ_k y[r, k]) / 4096 ),

  on the extended reals, the divisor being the value of the word 0x45800000 both programs spell. The kernel reads
  the [64, 36, 4096] arrays as 2304 rows (the two leading axes merged, row r·36 + u), works on blocks of 256 whole
  rows, and splits the row axis again at the end; the reference works on the rank-3 arrays directly. Stated here:
  the result as one function of the arrays in each of the two layouts (`rowScaled`, `rowScaled3`); that a block of
  whole rows of `rowScaled` is the same expression of the block's own entries (`rowScaled_block`: a row's sums only
  visit that row, and the block holds it whole); and that merging the leading axes, taking `rowScaled`, and splitting
  them again is `rowScaled3` (`split_rowScaled_merge`: row r·36 + u of the merged arrays IS row (r, u)). No law of
  arithmetic is used beyond reading both sides at an index: the two programs apply the same operations in the same
  order to the same entries, so nothing here depends on the inputs being finite.
-/
import Idealize.ShloMosaic.PureOps.Ideal
import Idealize.ShloMosaic.PureOps.Ideal.Laws
import Idealize.ShloMosaic.Lib.ValueIdx
import Idealize.ShloMosaic.Lib.Pipeline.Value
import proofs.«117776_j936302870551_1_alg».proof.Proof.LibLayoutCols

noncomputable section

open scoped BigOperators

namespace Cert.RowMean

open Idealize.ShloMosaic Idealize.ShloMosaic.ValueIdx Idealize.ShloMosaic.LibLayoutCols

/-- The row length as both programs write it: the value of the f32 word of 4096. -/
abbrev len : EReal := Ideal.ofBits .f32 0x45800000#32

/-- The result over 2304 rows: each entry of `Y` times the sum of the two row means of its row. -/
def rowScaled (X Y : (⟨2, ![2304, 4096]⟩ : Shape).Idx → EReal) : (⟨2, ![2304, 4096]⟩ : Shape).Idx → EReal := fun i =>
  Y i * (Ideal.div (∑ k : Fin 4096, X (ix2 (i 0) k)) len + Ideal.div (∑ k : Fin 4096, Y (ix2 (i 0) k)) len)

/-- The same over the rank-3 arrays: a row is named by its two leading coordinates. -/
def rowScaled3 (x y : (⟨3, ![64, 36, 4096]⟩ : Shape).Idx → EReal) : (⟨3, ![64, 36, 4096]⟩ : Shape).Idx → EReal := fun i =>
  y i * (Ideal.div (∑ k : Fin 4096, x (ix3 (i 0) (i 1) k)) len + Ideal.div (∑ k : Fin 4096, y (ix3 (i 0) (i 1) k)) len)

/-- A block of 256 whole rows: if `x0`, `x1` are `X`, `Y` read through an embedding `e` of the block that sends a row of
    the block into ONE row of the array (`he0`) and keeps the column (`he1`), then the row expression of the block's own
    entries at `j` is `rowScaled X Y` at `e j`. -/
theorem rowScaled_block (X Y : (⟨2, ![2304, 4096]⟩ : Shape).Idx → EReal) (x0 x1 : (⟨2, ![256, 4096]⟩ : Shape).Idx → EReal)
    (e : (⟨2, ![256, 4096]⟩ : Shape).Idx → (⟨2, ![2304, 4096]⟩ : Shape).Idx)
    (h0 : ∀ y, x0 y = X (e y)) (h1 : ∀ y, x1 y = Y (e y))
    (he0 : ∀ y y', y 0 = y' 0 → e y 0 = e y' 0) (he1 : ∀ y, (e y 1).val = (y 1).val)
    (j : (⟨2, ![256, 4096]⟩ : Shape).Idx) :
    x1 j * (Ideal.div (∑ k : Fin 4096, x0 (ix2 (j 0) k)) len + Ideal.div (∑ k : Fin 4096, x1 (ix2 (j 0) k)) len)
      = rowScaled X Y (e j) := by
  have hrow : ∀ k : Fin 4096, e (ix2 (j 0) k) = ix2 (e j 0) k := fun k => funext fun a => by
    match a with
    | ⟨0, _⟩ => exact he0 (ix2 (j 0) k) j rfl
    | ⟨1, _⟩ => exact Fin.ext (he1 (ix2 (j 0) k))
  unfold rowScaled
  rw [h1 j]
  refine congrArg (Y (e j) * ·) (congrArg₂ (· + ·) (congrArg (Ideal.div · len) ?_) (congrArg (Ideal.div · len) ?_))
  · exact Finset.sum_congr rfl fun k _ => (h0 _).trans (congrArg X (hrow k))
  · exact Finset.sum_congr rfl fun k _ => (h1 _).trans (congrArg Y (hrow k))

/-- A `[n, c]` array cast to `[a, b, c]` (so `n = a·b`) reads, at `(r, u, j)`, the operand at row `p = r·b + u` and
    column `j`: the row-major position is the same. -/
theorem shapeCast_nc_abc_apply {α : Type} {a b c n : ℕ} (x : (⟨2, ![n, c]⟩ : Shape).Idx → α)
    (h : (⟨2, ![n, c]⟩ : Shape).ShapeCasts ⟨3, ![a, b, c]⟩) (r : Fin a) (u : Fin b) (p : Fin n)
    (hp : p.val = r.val * b + u.val) (j : Fin c) :
    shapeCast ⟨3, ![a, b, c]⟩ x h (ix3 r u j) = x (ix2 p j) :=
  shapeCast_apply x h _ _ (by
    rw [Shape.rowMajor_val_three, Shape.rowMajor_val_two]
    show p.val * c + j.val = (r.val * b + u.val) * c + j.val
    rw [hp])

/-- Merging the two leading axes of `x` and `y`, taking `rowScaled`, and splitting the row axis again is `rowScaled3`:
    row `r·36 + u` of a merged array holds the entries `(r, u, ·)`. -/
theorem split_rowScaled_merge (x y : (⟨3, ![64, 36, 4096]⟩ : Shape).Idx → EReal)
    (hm : (⟨3, ![64, 36, 4096]⟩ : Shape).ShapeCasts ⟨2, ![2304, 4096]⟩)
    (hs : (⟨2, ![2304, 4096]⟩ : Shape).ShapeCasts ⟨3, ![64, 36, 4096]⟩) :
    shapeCast ⟨3, ![64, 36, 4096]⟩ (rowScaled (shapeCast ⟨2, ![2304, 4096]⟩ x hm) (shapeCast ⟨2, ![2304, 4096]⟩ y hm)) hs
      = rowScaled3 x y := by
  funext i
  obtain ⟨r, u, j, rfl⟩ : ∃ (r : Fin 64) (u : Fin 36) (j : Fin 4096), i = ix3 r u j := ⟨i 0, i 1, i 2, eq_ix3 i⟩
  have hp : r.val * 36 + u.val < 2304 := by have := r.isLt; have := u.isLt; omega
  rw [shapeCast_nc_abc_apply _ hs r u ⟨r.val * 36 + u.val, hp⟩ rfl j]
  show shapeCast ⟨2, ![2304, 4096]⟩ y hm (ix2 ⟨r.val * 36 + u.val, hp⟩ j)
        * (Ideal.div (∑ k : Fin 4096, shapeCast ⟨2, ![2304, 4096]⟩ x hm (ix2 ⟨r.val * 36 + u.val, hp⟩ k)) len
          + Ideal.div (∑ k : Fin 4096, shapeCast ⟨2, ![2304, 4096]⟩ y hm (ix2 ⟨r.val * 36 + u.val, hp⟩ k)) len)
      = y (ix3 r u j) * (Ideal.div (∑ k : Fin 4096, x (ix3 r u k)) len + Ideal.div (∑ k : Fin 4096, y (ix3 r u k)) len)
  rw [shapeCast_abc_nc_apply y hm r u ⟨r.val * 36 + u.val, hp⟩ rfl j]
  refine congrArg (y (ix3 r u j) * ·) (congrArg₂ (· + ·) (congrArg (Ideal.div · len) ?_) (congrArg (Ideal.div · len) ?_))
  · exact Finset.sum_congr rfl fun k _ => shapeCast_abc_nc_apply x hm r u ⟨r.val * 36 + u.val, hp⟩ rfl k
  · exact Finset.sum_congr rfl fun k _ => shapeCast_abc_nc_apply y hm r u ⟨r.val * 36 + u.val, hp⟩ rfl k

end Cert.RowMean

end
-- ==== Proof.BlockBody.lean ====
/-
  What the kernel body stores, read at an entry. On a block of 256 whole rows the body sums each row of its two
  inputs along the row, divides each sum by the row length, adds the two quotients, copies the result of a row across
  that row, and multiplies by the second input: entry (p, q) of what it stores is

      x1[p, q] · ( (Σ_k x0[p, k]) / 4096 + (Σ_k x1[p, k]) / 4096 )

  of the block's own entries. The lane reduction at the ideal instance is the plain sum along the row; the column of
  per-row values copied across a row reads, at (p, q), the value of row p.
-/
import proofs.«117776_j936302870551_1_alg».proof.Proof.Gen.KernelIdeal.Skeleton
import proofs.«117776_j936302870551_1_alg».proof.Proof.RowMean

noncomputable section

open scoped BigOperators

namespace Cert.RowMean

open Idealize.ShloMosaic Idealize.ShloMosaic.ValueIdx Idealize.ShloMosaic.LibLayoutCols
open Cert.KernelIdeal Cert.KernelIdeal.Gen

/-- The body's sum over the lanes of a [256, 4096] block, at the ideal instance, read at row `p`: the sum of that row. -/
theorem laneSum_apply (src : FVec Ideal S256x4096 .f32) (h : S256x4096.Reduces [1] S256) (hφ : FKind.Formats .f32)
    (hacc : (0x00000000#32 : BitVec 32) = 0x00000000#32) (p : Fin 256) :
    multiReduction .add [1] S256 src 0x00000000#32 h hφ hacc (ix1 p) = ∑ k : Fin 4096, src (ix2 p k) :=
  (Ideal.multiReduction_add_single src 0x00000000#32 h hφ hacc (ix1 p)).trans
    (Finset.sum_congr rfl fun k _ => congrArg src (funext fun a => Fin.ext (by
      match a with
      | ⟨0, _⟩ => rfl
      | ⟨1, _⟩ => rfl)))

/-- What the body stores, at entry `(p, q)` of the block. -/
theorem body_apply (x0 x1 : Vec Ideal S256x4096 .f32) (p : Fin 256) (q : Fin 4096) :
    k0_pay1 (F := Ideal) x0 x1 (ix2 p q)
      = x1 (ix2 p q) * (Ideal.div (∑ k : Fin 4096, x0 (ix2 p k)) len + Ideal.div (∑ k : Fin 4096, x1 (ix2 p k)) len) := by
  unfold k0_pay1
  simp only [shapeCast_self]
  rw [mulf_apply, broadcastTo_a1_ab_apply, addf_apply, divf_apply, divf_apply]
  refine congrArg (x1 (ix2 p q) * ·) (congrArg₂ (· + ·) (congrArg (Ideal.div · len) ?_) (congrArg (Ideal.div · len) ?_))
  · exact (shapeCast_a_a1_apply _ _ p 0).trans (laneSum_apply x0 _ _ _ p)
  · exact (shapeCast_a_a1_apply _ _ p 0).trans (laneSum_apply x1 _ _ _ p)

/-- The same at any entry `j` of the block, its row named by `j 0`. -/
theorem body_apply_idx (x0 x1 : Vec Ideal S256x4096 .f32) (j : S256x4096.Idx) :
    k0_pay1 (F := Ideal) x0 x1 j
      = x1 j * (Ideal.div (∑ k : Fin 4096, x0 (ix2 (j 0) k)) len + Ideal.div (∑ k : Fin 4096, x1 (ix2 (j 0) k)) len) := by
  obtain ⟨p, q, rfl⟩ : ∃ (p : Fin 256) (q : Fin 4096), j = ix2 p q := ⟨j 0, j 1, eq_ix2 j⟩
  exact body_apply x0 x1 p q

end Cert.RowMean

end
-- ==== Proof.KernelRows.lean ====
/-
  The kernel's result array. The kernel reads each argument as 2304 rows of 4096 entries (the two leading axes merged),
  visits nine blocks of 256 whole rows, one per grid point, and at each point writes back the body's result on that
  block; afterwards the row axis is split again into [64, 36]. Shown here, in order: what point t writes back is block t
  of ONE function of the two merged arrays, `rowScaled` (a row's two sums only visit that row, and the block holds the
  row whole; the three windows sit on the same block at every point); the nine blocks tile the 2304 rows (row r lies in
  block r / 256), so after the run the output array IS `rowScaled` of the merged arrays; the merged arrays are the
  arguments cast to [2304, 4096]; and the final cast back of `rowScaled` of the merged arguments is `rowScaled3` of the
  arguments themselves. The run of the whole program is then restated with the result at that function.
-/
import proofs.«117776_j936302870551_1_alg».proof.Proof.Gen.KernelIdeal.Frame
import proofs.«117776_j936302870551_1_alg».proof.Proof.BlockBody
import Idealize.ShloMosaic.Lib.Pipeline.Value
import Idealize.ShloMosaic.Lib.StableHlo.Run

set_option maxRecDepth 16384

noncomputable section

open scoped BigOperators

namespace Cert.RowMean.KernelSide

open Idealize.ShloMosaic Idealize.ShloMosaic.TcCoe Idealize.ShloMosaic.ValueIdx Idealize.SL.Sem
open Idealize.ShloMosaic.StableHlo
open Cert.KernelIdeal Cert.KernelIdeal.Gen Cert.RowMean

variable (m : (ℓ : Loc nD τ sig) → Buf (Elt Ideal) ℓ) (ρ : Dev nD → PrngReg)

/-- A block's rectangle starts at the origin of its staging buffer. -/
theorem origin : (![0, 0] : Fin 2 → Nat) = fun _ => 0 := funext fun a => by fin_cases a <;> rfl

/-- The three index maps over the nine grid points: the two inputs sit on the output's block of rows, no window moves
    along the row, and the output's block index stays below nine. -/
theorem index_facts : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (0 : Fin 2) ≤ 8
    ∧ win0_2.index t (1 : Fin 2) = 0 :=
  (by decide +kernel : ∀ t : Fin grid0.N, _)

/-- Every one of the nine row blocks is some point's. -/
theorem index_onto : ∀ q : Fin 9, ∃ t : Fin cfg0.N, win0_2.index t = ![q.val, 0] :=
  (by decide +kernel : ∀ q : Fin 9, ∃ t : Fin grid0.N, win0_2.index t = ![q.val, 0])

/-- What point `t` writes back is block `t` of `rowScaled` of the two merged arrays as the region finds them. -/
theorem flushed_rows (c : Dev nD) (t : Fin cfg0.N) :
    (dats m 0 c).flushed 2 t
      = ((cfg0.win 2).blk t).view.read (Elt Ideal) (rowScaled (V m c main_v0) (V m c main_v1)) := by
  show (cfg0.win 2).cut (grid0.coords t) ((dats m 0 c).after 2 t) = _
  rw [after0_2]
  unfold out0_2
  rw [View.canon_unit_zero origin]
  simp only [View.ld_unit_zero (S := S256x4096) origin]
  obtain ⟨e0, e1, e2, e3, e4, e5⟩ := index_facts t
  funext j
  show k0_pay1 (F := Ideal) (iblk m c 0 t) (iblk m c 1 t) j
    = rowScaled (V m c main_v0) (V m c main_v1) (((cfg0.win 2).blk t).view.emb j)
  refine (body_apply_idx (iblk m c 0 t) (iblk m c 1 t) j).trans ?_
  refine rowScaled_block (V m c main_v0) (V m c main_v1) (iblk m c 0 t) (iblk m c 1 t)
    (fun y => ((cfg0.win 2).blk t).view.emb y) ?_ ?_ ?_ ?_ j
  · intro y
    show V m c main_v0 (((cfg0.win 0).blk t).view.emb y) = V m c main_v0 (((cfg0.win 2).blk t).view.emb y)
    refine congrArg (V m c main_v0) (funext fun a => Fin.ext ?_)
    match a with
    | ⟨0, _⟩ => show win0_0.index t (0 : Fin 2) * 256 + 1 * (y 0).val = win0_2.index t (0 : Fin 2) * 256 + 1 * (y 0).val; omega
    | ⟨1, _⟩ => show win0_0.index t (1 : Fin 2) * 4096 + 1 * (y 1).val = win0_2.index t (1 : Fin 2) * 4096 + 1 * (y 1).val; omega
  · intro y
    show V m c main_v1 (((cfg0.win 1).blk t).view.emb y) = V m c main_v1 (((cfg0.win 2).blk t).view.emb y)
    refine congrArg (V m c main_v1) (funext fun a => Fin.ext ?_)
    match a with
    | ⟨0, _⟩ => show win0_1.index t (0 : Fin 2) * 256 + 1 * (y 0).val = win0_2.index t (0 : Fin 2) * 256 + 1 * (y 0).val; omega
    | ⟨1, _⟩ => show win0_1.index t (1 : Fin 2) * 4096 + 1 * (y 1).val = win0_2.index t (1 : Fin 2) * 4096 + 1 * (y 1).val; omega
  · intro y y' h
    apply Fin.ext
    show win0_2.index t (0 : Fin 2) * 256 + 1 * (y 0).val = win0_2.index t (0 : Fin 2) * 256 + 1 * (y' 0).val
    rw [h]
  · intro y
    show win0_2.index t (1 : Fin 2) * 4096 + 1 * (y 1).val = (y 1).val
    omega

/-- An entry of the output array lies in point `t`'s block iff each coordinate lies in the block's range on its axis. -/
theorem mem_block (t : Fin cfg0.N) (i : S2304x4096.Idx) :
    i ∈ ((cfg0.win 2).blk t).view.set ↔ ∀ a : Fin 2, win0_2.index t a * S256x4096.size a ≤ (i a).val
      ∧ (i a).val < win0_2.index t a * S256x4096.size a + S256x4096.size a := by
  show i ∈ ((View.whole main_v2).slice (win0_2.rect t)).set ↔ _
  rw [View.set_slice_whole, Rect.mem_set_unit]
  exact Iff.rfl

/-- The nine blocks tile the array: row `r` lies in the block of index `r / 256`. -/
theorem rows_covered (i : S2304x4096.Idx) :
    ∃ t : Fin cfg0.N, (cfg0.win 2).flush t = true ∧ i ∈ ((cfg0.win 2).blk t).view.set := by
  have hi0 : (i 0).val < 2304 := (i 0).isLt
  have hi1 : (i 1).val < 4096 := (i 1).isLt
  obtain ⟨t, ht⟩ := index_onto ⟨(i 0).val / 256, by omega⟩
  have q0 : win0_2.index t (0 : Fin 2) = (i 0).val / 256 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 4096 ≤ (i 1).val ∧ (i 1).val < win0_2.index t (1 : Fin 2) * 4096 + 4096; omega

/-- So after the run the output array is `rowScaled` of the two merged arrays. -/
theorem final_rows (c : Dev nD) : (dats m 0 c).arrAt 2 cfg0.N = rowScaled (V m c main_v0) (V m c main_v1) :=
  (dats m 0 c).arrAt_eq_of_cover 2 (rowScaled (V m c main_v0) (V m c main_v1)) (fun t _ => flushed_rows m c t) rows_covered

/-- The first merged array is the first argument cast to 2304 rows. -/
theorem merged0 (c : Dev nD) : (V m c main_v0 : S2304x4096.Idx → EReal)
    = shapeCast S2304x4096 (m ((c : Thread nD τ).loc main_arg0)) shapeCasts_S64x36x4096_S2304x4096 := by
  show StableHlo.after hostOps0 (fun b => m (c, b)) (Proc.devRef .tc main_v0) = _
  after_results
  rfl

/-- The second merged array is the second argument cast to 2304 rows. -/
theorem merged1 (c : Dev nD) : (V m c main_v1 : S2304x4096.Idx → EReal)
    = shapeCast S2304x4096 (m ((c : Thread nD τ).loc main_arg1)) shapeCasts_S64x36x4096_S2304x4096 := by
  show StableHlo.after hostOps0 (fun b => m (c, b)) (Proc.devRef .tc main_v1) = _
  after_results
  rfl

/-- The program's result: the output array's row axis split again, which is `rowScaled3` of the arguments. -/
theorem result_rows (c : Dev nD) :
    Pipeline.afterTail₀ cfgs (dats m) 0 (V0 m) [hostOps1] c main_v3
      = rowScaled3 (m ((c : Thread nD τ).loc main_arg0)) (m ((c : Thread nD τ).loc main_arg1)) := by
  refine Eq.trans ?_ (split_rowScaled_merge (m ((c : Thread nD τ).loc main_arg0)) (m ((c : Thread nD τ).loc main_arg1))
    shapeCasts_S64x36x4096_S2304x4096 shapeCasts_S2304x4096_S64x36x4096)
  rw [← merged0 m c, ← merged1 m c, ← final_rows m c]
  unfold Pipeline.afterTail₀
  show StableHlo.after hostOps1 _ (Proc.devRef .tc main_v3) = _
  after_results
  exact congrArg (fun z => shapeCast S64x36x4096 z shapeCasts_S2304x4096_S64x36x4096)
    (Pipeline.withArrays_arr spec0 launch0.win.arr_inj c _ _ 2)

/-- The run of the idealized kernel program, restated: the result at `rowScaled3` of the arguments, the arguments kept. -/
theorem run : θ_run defs (onTc (τ := τ) (main (F := Ideal))) ⟨m, fun _ => 0, ρ⟩ fun r => ∀ c : Dev nD,
      r.2.mem ((c : Thread nD τ).loc main_v3)
        = rowScaled3 (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v3 (Pipeline.mem_restRefs_of main_v3 (by decide) (by decide))).trans (result_rows m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.RowMean.KernelSide

end
-- ==== Proof.ReferenceRows.lean ====
/-
  The reference's result array. The reference sums each row (r, u, ·) of the two rank-3 arguments from zero, divides each
  sum by the row length, adds the two quotients, copies the result across the row and multiplies by the second argument.
  Read at an index (r, u, l), one operation at a time, that is

      y[r, u, l] · ( (0 + Σ_k x[r, u, k]) / 4096 + (0 + Σ_k y[r, u, k]) / 4096 ),

  and a sum started from zero is the sum: the reference computes `rowScaled3`.
-/
import proofs.«117776_j936302870551_1_alg».proof.Proof.Gen.ReferenceIdeal.Read
import proofs.«117776_j936302870551_1_alg».proof.Proof.RowMean

noncomputable section

open scoped BigOperators

namespace Cert.RowMean.ReferenceSide

open Idealize.ShloMosaic Idealize.ShloMosaic.ValueIdx
open Cert.ReferenceIdeal Cert.ReferenceIdeal.Read Cert.RowMean

/-- The index the reference's row sum visits at step `k`, from the result index `i`: the row of `i`, column `k`. -/
theorem row_index (i : S64x36x4096.Idx) (k : Fin 4096) :
    idx_main_v0 (idx_main_v1 (idx_main_v9 i)) k = ix3 (i 0) (i 1) k :=
  funext fun a => by
    match a with
    | ⟨0, _⟩ => rfl
    | ⟨1, _⟩ => rfl
    | ⟨2, _⟩ => rfl

/-- The same for the second argument's row sum. -/
theorem row_index' (i : S64x36x4096.Idx) (k : Fin 4096) :
    idx_main_v4 (idx_main_v5 (idx_main_v9 i)) k = ix3 (i 0) (i 1) k :=
  funext fun a => by
    match a with
    | ⟨0, _⟩ => rfl
    | ⟨1, _⟩ => rfl
    | ⟨2, _⟩ => rfl

/-- The reference's last stage is `rowScaled3` of its arguments. -/
theorem reference_rows (x y : (⟨S64x36x4096, .f32⟩ : BufTy).Contents (Elt Ideal)) :
    val_main_v10 (F := Ideal) x y = rowScaled3 x y := by
  funext i
  rw [val_main_v10_apply, val_main_v9_apply, val_main_v8_apply, val_main_v3_apply, val_main_v7_apply,
    val_main_v1_apply, val_main_v5_apply, val_main_v0_apply, val_main_v4_apply, val_main_v2_apply, val_main_v6_apply,
    val_main_cst_0_apply, val_main_cst_2_apply, val_main_cst_apply, val_main_cst_1_apply]
  simp only [Ideal.mulf_def, Ideal.addf_def, Ideal.hostDivf_def, Ideal.ofBits_def, Ideal.ofBits_zero_f32, zero_add,
    row_index, row_index']
  rfl

end Cert.RowMean.ReferenceSide

end
-- ==== Proof.lean ====
/-
  The kernel and its reference compute one function. For arguments x and y of shape [64, 36, 4096], both programs end with

      out[r, u, l] = y[r, u, l] · ( (Σ_k x[r, u, k]) / 4096 + (Σ_k y[r, u, k]) / 4096 )

  on the extended reals (`Cert.RowMean.rowScaled3`, Proof/RowMean.lean). The kernel merges the two leading axes into
  2304 rows, works on nine blocks of 256 whole rows and splits the row axis again (Proof/BlockBody.lean: what the body
  stores on a block; Proof/KernelRows.lean: the blocks tile the rows, and the merge and the split cancel around the row
  expression); the reference sums each row from zero on the rank-3 arrays (Proof/ReferenceRows.lean). The two apply the
  same operations to the same entries, so no law that could fail at an infinity is needed and the precondition is never
  opened. The idealization rewrote nothing, so the kernel's idealized program is its own text and that claim is trivial.
  Each program terminates with its arguments unchanged: the two kernel programs by their frames, the reference by its run.
-/
import proofs.«117776_j936302870551_1_alg».proof.Defs
import proofs.«117776_j936302870551_1_alg».proof.Proof.Gen.Kernel
import proofs.«117776_j936302870551_1_alg».proof.Proof.Gen.Kernel.Skeleton
import proofs.«117776_j936302870551_1_alg».proof.Proof.Gen.Kernel.Launch
import proofs.«117776_j936302870551_1_alg».proof.Proof.Gen.Kernel.Points
import proofs.«117776_j936302870551_1_alg».proof.Proof.Gen.Kernel.Frame
import proofs.«117776_j936302870551_1_alg».proof.Proof.Gen.KernelIdeal
import proofs.«117776_j936302870551_1_alg».proof.Proof.Gen.KernelIdeal.Skeleton
import proofs.«117776_j936302870551_1_alg».proof.Proof.Gen.KernelIdeal.Launch
import proofs.«117776_j936302870551_1_alg».proof.Proof.Gen.KernelIdeal.Points
import proofs.«117776_j936302870551_1_alg».proof.Proof.Gen.KernelIdeal.Frame
import proofs.«117776_j936302870551_1_alg».proof.Proof.Gen.ReferenceIdeal
import proofs.«117776_j936302870551_1_alg».proof.Proof.Gen.Pre_finite_inputs
import proofs.«117776_j936302870551_1_alg».proof.Proof.Gen.ReferenceIdeal.Run
import proofs.«117776_j936302870551_1_alg».proof.Proof.Gen.ReferenceIdeal.Read
import proofs.«117776_j936302870551_1_alg».proof.Proof.KernelRows
import proofs.«117776_j936302870551_1_alg».proof.Proof.ReferenceRows
import Idealize.ShloMosaic.Adequacy
import Idealize.ShloMosaic.Init

noncomputable section

namespace Cert.Proof

open Idealize.ShloMosaic Idealize.ShloMosaic.TcCoe Idealize.SL.Sem

/-- The kernel as printed runs to the end and keeps its arguments. -/
theorem frame_kernel : Cert.frame_Kernel := fun m ρ _ => Cert.Kernel.Gen.frame m ρ

/-- So does its idealized text. -/
theorem frame_kernelIdeal : Cert.frame_KernelIdeal := fun m ρ _ => Cert.KernelIdeal.Gen.frame m ρ

/-- And the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end with the result at `rowScaled3` of the
    arguments: the kernel by its blocks of rows, the reference by its row sums. -/
theorem algebraic : Cert.algebraic_KernelIdeal_ReferenceIdeal := by
  intro m ρ m' ρ' _ hagree
  refine ⟨fun c => Cert.RowMean.rowScaled3
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.RowMean.KernelSide.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v10_eq, Cert.RowMean.ReferenceSide.reference_rows,
    (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
